-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S128x64 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S5000x1 : Shape := ⟨2, ![5000, 1]⟩
abbrev S800000x64 : Shape := ⟨2, ![800000, 64]⟩

abbrev nBuf : Space → Nat
  | .hbm => 66
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S1x64, .f32⟩
  | .hbm, ⟨20, _⟩ => ⟨S50000x64, .f32⟩
  | .hbm, ⟨21, _⟩ => ⟨S50000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x1, .f32⟩
  | .local _ .vmem, ⟨37, _⟩ => ⟨S5000x1, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .f32⟩
  | .local _ .vmem, ⟨45, _⟩ => ⟨S5000x1, .f32⟩
  | .local _ .vmem, ⟨46, _⟩ => ⟨S5000x64, .f32⟩
  | .local _ .vmem, ⟨47, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  bcast_S_S50000x64 : S_.BroadcastsInDim S50000x64 (![] : Fin 0 → Fin S50000x64.rank)
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v37) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v38) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v48) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v38) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v49) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  What the kernel program computes, as functions of whole arrays (no program is opened here).

  From the edge list `e : i32[2, 800000]`: `rowOf e` and `colOf e` are its two rows; `normOf e` is the column
  `rsqrt (1 + deg)` of shape [50000, 1], where `deg` counts, by an accumulating scatter of ones, how often each node occurs in
  `rowOf e`. One message-passing layer `layerG n r c h` of a feature array `h : f32[50000, 64]` scales the rows by the
  column (`scaleG n h`: entry (i, j) is `n (i, 0) * h (i, j)`), sums over every edge the scaled row of the edge's
  `c`-endpoint (negative endpoints wrapped by 50000) into the row of its `r`-endpoint (`aggOf`: a gather followed by an
  accumulating scatter into zeros), adds the scaled array itself and scales the rows by the column again (`combineG`).
-/
import proofs.«152417_j22368189678004_1_alg».proof.Proof.Gen.KernelIdeal
import Idealize.ShloMosaic.Lib.Pipeline.Value

noncomputable section

namespace Cert.KernelIdeal.Hand

open Idealize.ShloMosaic Cert.KernelIdeal Cert.KernelIdeal.Gen

variable {F : FTy → Type} [FloatOps F]

/-- A column [50000, 1] broadcasts along the rows of a [50000, 64] array. -/
theorem bcastCol : S50000x1.BroadcastsInDim S50000x64 (![0, 1] : Fin 2 → Fin S50000x64.rank) := by decide

/-- Entry (i, j) is `n (i, 0) * h (i, j)`. -/
def scaleG (n : (⟨S50000x1, .f32⟩ : BufTy).Contents (Elt F)) (h : (⟨S50000x64, .f32⟩ : BufTy).Contents (Elt F)) :
    (⟨S50000x64, .f32⟩ : BufTy).Contents (Elt F) :=
  mulf (broadcastInDim S50000x64 ![0, 1] bcastCol n) h

/-- Entry (i, j) is `n (i, 0) * (a (i, j) + xs (i, j))`. -/
def combineG (a xs : (⟨S50000x64, .f32⟩ : BufTy).Contents (Elt F)) (n : (⟨S50000x1, .f32⟩ : BufTy).Contents (Elt F)) :
    (⟨S50000x64, .f32⟩ : BufTy).Contents (Elt F) :=
  mulf (broadcastInDim S50000x64 ![0, 1] bcastCol n) (addf a xs)

/-- The column broadcast along the rows, at an index, is the column's entry in the index's row. -/
theorem col_apply (n : (⟨S50000x1, .f32⟩ : BufTy).Contents (Elt F)) (i : S50000x64.Idx) (k : S50000x1.Idx)
    (hk0 : (k 0).val = (i 0).val) (hk1 : (k 1).val = 0) :
    broadcastInDim S50000x64 ![0, 1] bcastCol n i = n k :=
  broadcastInDim_apply _ bcastCol n i k (fun a => match a with
    | ⟨0, _⟩ => by show (k 0).val = if (50000 : Nat) = 1 then 0 else (i 0).val; rw [if_neg (by decide)]; exact hk0
    | ⟨1, _⟩ => by show (k 1).val = if (1 : Nat) = 1 then 0 else (i 1).val; rw [if_pos rfl]; exact hk1)

/-- `scaleG` at an index. -/
theorem scaleG_apply (n : (⟨S50000x1, .f32⟩ : BufTy).Contents (Elt F)) (h : (⟨S50000x64, .f32⟩ : BufTy).Contents (Elt F))
    (i : S50000x64.Idx) (k : S50000x1.Idx) (hk0 : (k 0).val = (i 0).val) (hk1 : (k 1).val = 0) :
    scaleG n h i = FloatOps.mulf (n k) (h i) := by
  unfold scaleG
  show FloatOps.mulf (broadcastInDim S50000x64 ![0, 1] bcastCol n i) (h i) = _
  rw [col_apply n i k hk0 hk1]

/-- `combineG` at an index. -/
theorem combineG_apply (a xs : (⟨S50000x64, .f32⟩ : BufTy).Contents (Elt F)) (n : (⟨S50000x1, .f32⟩ : BufTy).Contents (Elt F))
    (i : S50000x64.Idx) (k : S50000x1.Idx) (hk0 : (k 0).val = (i 0).val) (hk1 : (k 1).val = 0) :
    combineG a xs n i = FloatOps.mulf (n k) (FloatOps.addf (a i) (xs i)) := by
  unfold combineG
  show FloatOps.mulf (broadcastInDim S50000x64 ![0, 1] bcastCol n i) (FloatOps.addf (a i) (xs i)) = _
  rw [col_apply n i k hk0 hk1]

/-- The first row of the edge list, as a vector. -/
def rowOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The second row of the edge list, as a vector. -/
def colOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The column `rsqrt (1 + deg)`: `deg` is the accumulating scatter of 800000 ones into 50000 zeros at the indices `r`. -/
def normOfRow (r : (⟨S800000, .i32⟩ : BufTy).Contents (Elt F)) : (⟨S50000x1, .f32⟩ : BufTy).Contents (Elt F) :=
  broadcastInDim S50000x1 ![0] bcast_S50000_S50000x1_0
    (Host.rsqrt (F := F)
      (addf (broadcastInDim S50000 ![] bcast_S_S50000 (constant (F := F) S_ .f32 0x3F800000#32))
        (Host.scatterAdd (F := F) scatter_S50000_S800000x1_S800000_n_0_0_1
          (broadcastInDim S50000 ![] bcast_S_S50000 (constant (F := F) S_ .f32 0x00000000#32))
          (broadcastInDim S800000x1 ![0] bcast_S800000_S800000x1_0 r)
          (broadcastInDim S800000 ![] bcast_S_S800000 (constant (F := F) S_ .f32 0x3F800000#32)))))

/-- The neighbourhood sums: over every edge, row `c` of `xs` (a negative `c` wrapped by 50000) is added into row `r`
    of an array of zeros. -/
def aggOf (r c : (⟨S800000, .i32⟩ : BufTy).Contents (Elt F)) (xs : (⟨S50000x64, .f32⟩ : BufTy).Contents (Elt F)) :
    (⟨S50000x64, .f32⟩ : BufTy).Contents (Elt F) :=
  Host.scatterAdd (F := F) scatter_S50000x64_S800000x1_S800000x64_1_0_0_1
    (broadcastInDim S50000x64 ![] bcast_S_S50000x64 (constant (F := F) S_ .f32 0x00000000#32))
    (broadcastInDim S800000x1 ![0] bcast_S800000_S800000x1_0 r)
    (Host.gather gather_S50000x64_S800000x1_S800000x64_1_0_n_n_0_1_164 xs
      (broadcastInDim S800000x1 ![0] bcast_S800000_S800000x1_0
        (select (cmpi .slt c (broadcastInDim S800000 ![] bcast_S_S800000 (constantI S_ 32 0#32 : (⟨S_, .i32⟩ : BufTy).Contents (Elt F))))
          (addi c (broadcastInDim S800000 ![] bcast_S_S800000 (constantI S_ 32 50000#32 : (⟨S_, .i32⟩ : BufTy).Contents (Elt F))))
          c)))

/-- One layer: scale, aggregate over the edges, add the scaled array, scale again. -/
def layerG (n : (⟨S50000x1, .f32⟩ : BufTy).Contents (Elt F)) (r c : (⟨S800000, .i32⟩ : BufTy).Contents (Elt F))
    (h : (⟨S50000x64, .f32⟩ : BufTy).Contents (Elt F)) : (⟨S50000x64, .f32⟩ : BufTy).Contents (Elt F) :=
  combineG (aggOf r c (scaleG n h)) (scaleG n h) n

end Cert.KernelIdeal.Hand

end
-- ==== Proof.PayEmbed.lean ====
/-
  The embedding kernel's body at an index, on the extended reals.

  The body casts its [5000, 128] block of `x` and the [128, 64] array `W` to bf16 (the identity on extended reals), multiplies them
  into a zero accumulator and adds the [1, 64] bias row broadcast down the rows: entry (p, q) is
  `∑ k < 128, x (p, k) * W (k, q)` plus `bias (0, q)`.
-/
import proofs.«152417_j22368189678004_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx Cert.KernelIdeal Cert.KernelIdeal.Gen

/-- The left operand's row is the output's row. -/
theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the summation index. -/
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the summation index. -/
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `j`, `k`) of the left block. -/
abbrev lblk (j : S5000x64.Idx) (k : Fin 128) : S5000x128.Idx := fun a => match a with
  | ⟨0, _⟩ => ⟨(j 0).val, (j 0).isLt⟩
  | ⟨1, _⟩ => ⟨k.val, k.isLt⟩
/-- Entry (`k`, column of `j`) of the right array. -/
abbrev rblk (j : S5000x64.Idx) (k : Fin 128) : S128x64.Idx := fun a => match a with
  | ⟨0, _⟩ => ⟨k.val, k.isLt⟩
  | ⟨1, _⟩ => ⟨(j 1).val, (j 1).isLt⟩

/-- The block product into zeros, at an index, is the sum over the 128 shared coordinates. -/
theorem blk_matmul_apply (xb : FVec Ideal S5000x128 .bf16) (wb : FVec Ideal S128x64 .bf16) (j : S5000x64.Idx) :
    matmul dot_S5000x128_S128x64_S5000x64_1_0_0_1_n_n none xb wb (constant S5000x64 .f32 0x00000000#32) j = ∑ k : Fin 128, xb (lblk j k) * wb (rblk j k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lblk j k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx j ((ValueIdx.contrEquiv1 dot_S5000x128_S128x64_S5000x64_1_0_0_1_n_n 128 rfl rfl).symm k) = rblk j k := funext fun a => Fin.ext (by
    match a with
    | ⟨0, _⟩ => exact (rhs_blk_0 _ _).trans hk
    | ⟨1, _⟩ => exact rhs_blk_1 _ _)
  rw [el, er]

/-- The body's stored value at an index: the product's sum plus the bias row's entry in the index's column. -/
theorem pay0_apply (xb : Vec Ideal S5000x128 .f32) (wb : Vec Ideal S128x64 .f32) (bb : Vec Ideal S1x64 .f32) (j : S5000x64.Idx)
    (kb : S1x64.Idx) (hkb0 : (kb 0).val = 0) (hkb1 : (kb 1).val = (j 1).val) :
    k0_pay1 (F := Ideal) xb wb bb j = (∑ k : Fin 128, xb (lblk j k) * wb (rblk j k)) + bb kb := by
  unfold k0_pay1
  rw [addf_apply, blk_matmul_apply, shapeCast_self]
  rw [broadcastTo_apply bb broadcasts_S1x64_S5000x64 j kb (fun a => match a with
    | ⟨0, _⟩ => by show (kb 0).val = if (1 : Nat) = 1 then 0 else (j 0).val; rw [if_pos rfl]; exact hkb0
    | ⟨1, _⟩ => by show (kb 1).val = if (64 : Nat) = 1 then 0 else (j 1).val; rw [if_neg (by decide)]; exact hkb1)]
  rfl

end Cert.KernelIdeal.Hand

end
-- ==== Proof.Embed0.lean ====
/-
  Region 0 (the embedding kernel over a grid of 10 row blocks of 5000), on the extended reals: its output array after the
  region is `x · W + b` in the reference's own form, whatever buffer contents `V` the region is entered from, provided its
  bias window holds the bias vector `b` reshaped to one row.

  At grid point `t` the body reads rows 5000 t … 5000 t + 4999 of `x`, all of `W` and the bias row; entry (p, q) of the block
  written back is `∑ k < 128, x (5000 t + p, k) * W (k, q) + b q`, which is entry (5000 t + p, q) of the reference's
  matrix product plus its broadcast bias; the ten blocks tile the 50000 rows.
-/
import proofs.«152417_j22368189678004_1_alg».proof.Proof.KernelIdealFrameP
import proofs.«152417_j22368189678004_1_alg».proof.Proof.PayEmbed
import proofs.«152417_j22368189678004_1_alg».proof.Proof.Gen.ReferenceIdeal.Read
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP
open Cert.ReferenceIdeal.Read (val_main_v15 val_main_v15_apply val_main_v12_apply val_main_v14_apply val_main_v13_apply
  lidx_main_v12 ridx_main_v12 idx_main_v13 idx_main_v14)

variable (V : (c : Dev nD) → (b : Ref sig .tc) → Buf (Elt Ideal) ((c : Thread nD τ).loc b))

theorem zero2_0 : (![0, 0] : Fin 2 → Nat) = fun _ => 0 := funext fun a => by fin_cases a <;> rfl

/-- The reference's `x · W + b` at an index: the sum over the 128 shared coordinates plus the bias entry of the index's column. -/
theorem ref_embed_apply (x : (⟨S50000x128, .f32⟩ : BufTy).Contents (Elt Ideal)) (w : (⟨S128x64, .f32⟩ : BufTy).Contents (Elt Ideal))
    (b : (⟨S64, .f32⟩ : BufTy).Contents (Elt Ideal)) (i : S50000x64.Idx) :
    val_main_v15 (F := Ideal) x w b i
      = (∑ k : Fin 128, x (lidx_main_v12 i k) * w (ridx_main_v12 i k)) + b (idx_main_v13 (idx_main_v14 i)) := by
  rw [val_main_v15_apply, val_main_v12_apply, val_main_v14_apply, val_main_v13_apply]
  rfl

/-- The bias vector reshaped to one row, read at (0, q), is its entry q. -/
theorem biasrow_apply (b : (⟨S64, .f32⟩ : BufTy).Contents (Elt Ideal)) (i : S1x64.Idx) (k : S64.Idx)
    (hi : (i 0).val = 0) (hk : (k 0).val = (i 1).val) : shapeCast S1x64 b shapeCasts_S64_S1x64 i = b k := by
  refine shapeCast_apply b shapeCasts_S64_S1x64 i k ?_
  rw [Shape.rowMajor_val_one, Shape.rowMajor_val_two]
  show (k 0).val = (i 0).val * 64 + (i 1).val
  omega

/-- The four windows' block indices over the grid: `x` and the output at block row `t`, `W` and the bias row whole. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the reference's `x · W + b` of the region's input arrays. -/
theorem flushed0 (c : Dev nD) (b : (⟨S64, .f32⟩ : BufTy).Contents (Elt Ideal))
    (hb : V c main_v12 = shapeCast S1x64 b shapeCasts_S64_S1x64) (t : Fin cfg0.N) :
    (dat0 V c).flushed 3 t
      = ((cfg0.win 3).blk t).view.read (Elt Ideal) (val_main_v15 (F := Ideal) (V c main_arg0) (V c main_arg2) b) := by
  show (cfg0.win 3).cut (grid0.coords t) ((dat0 V c).after 3 t) = _
  rw [after0_3]
  unfold out0_3
  rw [View.canon_unit_zero zero2_0]
  simp only [View.ld_unit_zero (S := S5000x128) zero2_0, View.ld_unit_zero (S := S128x64) zero2_0, View.ld_unit_zero (S := S1x64) zero2_0]
  obtain ⟨e0, e1, e2, e3, e4, e5, e6, e7⟩ := idx_facts0 t
  funext j
  have hj0 : (j 0).val < 5000 := (j 0).isLt
  have hj1 : (j 1).val < 64 := (j 1).isLt
  rw [View.read_apply]
  -- the bias row's entry in column `j 1`
  let kb : S1x64.Idx := fun a => match a with
    | ⟨0, _⟩ => ⟨0, Nat.one_pos⟩
    | ⟨1, _⟩ => ⟨(j 1).val, hj1⟩
  show k0_pay1 (F := Ideal) (iblk0 V c 0 t) (iblk0 V c 1 t) (iblk0 V c 2 t) j
    = val_main_v15 (F := Ideal) (V c main_arg0) (V c main_arg2) b (((cfg0.win 3).blk t).view.emb j)
  refine (pay0_apply (iblk0 V c 0 t) (iblk0 V c 1 t) (iblk0 V c 2 t) j kb rfl rfl).trans ?_
  refine Eq.trans ?_ (ref_embed_apply (V c main_arg0) (V c main_arg2) b (((cfg0.win 3).blk t).view.emb j)).symm
  congr 1
  · refine Finset.sum_congr rfl fun k _ => ?_
    have hl : ((cfg0.win 0).blk t).view.emb (lblk j k) = lidx_main_v12 (((cfg0.win 3).blk t).view.emb j) k := by
      funext a; apply Fin.ext
      match a with
      | ⟨0, _⟩ => show win0_0.index t (0 : Fin 2) * 5000 + 1 * (j 0).val = win0_3.index t (0 : Fin 2) * 5000 + 1 * (j 0).val; omega
      | ⟨1, _⟩ => show win0_0.index t (1 : Fin 2) * 128 + 1 * k.val = k.val; omega
    have hr : ((cfg0.win 1).blk t).view.emb (rblk j k) = ridx_main_v12 (((cfg0.win 3).blk t).view.emb j) k := by
      funext a; apply Fin.ext
      match a with
      | ⟨0, _⟩ => show win0_1.index t (0 : Fin 2) * 128 + 1 * k.val = k.val; omega
      | ⟨1, _⟩ => show win0_1.index t (1 : Fin 2) * 64 + 1 * (j 1).val = win0_3.index t (1 : Fin 2) * 64 + 1 * (j 1).val; omega
    have hx : (iblk0 V c 0 t : Vec Ideal S5000x128 .f32) (lblk j k)
        = (V c main_arg0 : (⟨S50000x128, .f32⟩ : BufTy).Contents (Elt Ideal)) (lidx_main_v12 (((cfg0.win 3).blk t).view.emb j) k) := by
      show V c main_arg0 (((cfg0.win 0).blk t).view.emb (lblk j k)) = _
      rw [hl]
    have hw : (iblk0 V c 1 t : Vec Ideal S128x64 .f32) (rblk j k)
        = (V c main_arg2 : (⟨S128x64, .f32⟩ : BufTy).Contents (Elt Ideal)) (ridx_main_v12 (((cfg0.win 3).blk t).view.emb j) k) := by
      show V c main_arg2 (((cfg0.win 1).blk t).view.emb (rblk j k)) = _
      rw [hr]
    rw [hx, hw]
  · show V c main_v12 (((cfg0.win 2).blk t).view.emb kb) = b (idx_main_v13 (idx_main_v14 (((cfg0.win 3).blk t).view.emb j)))
    rw [hb]
    refine biasrow_apply b _ _ ?_ ?_
    · show win0_2.index t (0 : Fin 2) * 1 + 1 * 0 = 0; omega
    · show win0_3.index t (1 : Fin 2) * 64 + 1 * (j 1).val = win0_2.index t (1 : Fin 2) * 64 + 1 * (j 1).val; omega

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- The output array after the region: row `r` lies in the block of point `r / 5000`, so the ten blocks cover it. -/
theorem final0 (c : Dev nD) (b : (⟨S64, .f32⟩ : BufTy).Contents (Elt Ideal))
    (hb : V c main_v12 = shapeCast S1x64 b shapeCasts_S64_S1x64) :
    (dat0 V c).arrAt 3 cfg0.N = val_main_v15 (F := Ideal) (V c main_arg0) (V c main_arg2) b :=
  (dat0 V c).arrAt_eq_of_cover 3 (val_main_v15 (F := Ideal) (V c main_arg0) (V c main_arg2) b) (fun t _ => flushed0 V c b hb t) fun i => by
    have hi0 : (i 0).val < 50000 := (i 0).isLt
    have hi1 : (i 1).val < 64 := (i 1).isLt
    have hN : cfg0.N = 10 := N_0
    let t : Fin cfg0.N := ⟨(i 0).val / 5000, by rw [hN]; omega⟩
    obtain ⟨-, -, -, -, -, -, e6, e7⟩ := idx_facts0 t
    have e6' : win0_3.index t (0 : Fin 2) = (i 0).val / 5000 := e6
    refine ⟨t, flush0_3 t, ?_⟩
    rw [mem_blk0]
    intro a
    match a with
    | ⟨0, _⟩ => show win0_3.index t (0 : Fin 2) * 5000 ≤ (i 0).val ∧ (i 0).val < win0_3.index t (0 : Fin 2) * 5000 + 5000; omega
    | ⟨1, _⟩ => show win0_3.index t (1 : Fin 2) * 64 ≤ (i 1).val ∧ (i 1).val < win0_3.index t (1 : Fin 2) * 64 + 64; omega

end Cert.KernelIdeal.Hand

end
-- ==== Proof.PayRows.lean ====
/-
  The two row kernels' bodies at an index, for any float values.

  Both broadcast a [5000, 1] column block along the rows of [5000, 64] blocks: entry (p, q) of the scaling body is
  `n (p, 0) * h (p, q)`, of the combining body `n (p, 0) * (a (p, q) + xs (p, q))`.
-/
import proofs.«152417_j22368189678004_1_alg».proof.Proof.Gen.KernelIdeal
import Idealize.ShloMosaic.Lib.Pipeline.Value

noncomputable section

namespace Cert.KernelIdeal.Hand

open Idealize.ShloMosaic Cert.KernelIdeal Cert.KernelIdeal.Gen

variable {F : FTy → Type} [FloatOps F]

/-- The column block broadcast along the rows, at an index, is the column's entry in the index's row. -/
theorem colblk_apply (n : Vec F S5000x1 .f32) (j : S5000x64.Idx) (k : S5000x1.Idx)
    (hk0 : (k 0).val = (j 0).val) (hk1 : (k 1).val = 0) :
    broadcastTo S5000x64 (shapeCast S5000x1 n shapeCasts_S5000x1_S5000x1) broadcasts_S5000x1_S5000x64 j = n k := by
  rw [shapeCast_self]
  exact broadcastTo_apply n broadcasts_S5000x1_S5000x64 j k (fun a => match a with
    | ⟨0, _⟩ => by show (k 0).val = if (5000 : Nat) = 1 then 0 else (j 0).val; rw [if_neg (by decide)]; exact hk0
    | ⟨1, _⟩ => by show (k 1).val = if (1 : Nat) = 1 then 0 else (j 1).val; rw [if_pos rfl]; exact hk1)

/-- The scaling body at an index. -/
theorem rowscale_apply (n : Vec F S5000x1 .f32) (h : Vec F S5000x64 .f32) (j : S5000x64.Idx) (k : S5000x1.Idx)
    (hk0 : (k 0).val = (j 0).val) (hk1 : (k 1).val = 0) :
    mulf (broadcastTo S5000x64 (shapeCast S5000x1 n shapeCasts_S5000x1_S5000x1) broadcasts_S5000x1_S5000x64)
      (shapeCast S5000x64 h shapeCasts_S5000x64_S5000x64) j = FloatOps.mulf (n k) (h j) := by
  show FloatOps.mulf (broadcastTo S5000x64 (shapeCast S5000x1 n shapeCasts_S5000x1_S5000x1) broadcasts_S5000x1_S5000x64 j)
    (shapeCast S5000x64 h shapeCasts_S5000x64_S5000x64 j) = _
  rw [colblk_apply n j k hk0 hk1, shapeCast_self]

/-- The combining body at an index. -/
theorem rowcombine_apply (n : Vec F S5000x1 .f32) (a xs : Vec F S5000x64 .f32) (j : S5000x64.Idx) (k : S5000x1.Idx)
    (hk0 : (k 0).val = (j 0).val) (hk1 : (k 1).val = 0) :
    mulf (broadcastTo S5000x64 (shapeCast S5000x1 n shapeCasts_S5000x1_S5000x1) broadcasts_S5000x1_S5000x64)
      (addf (shapeCast S5000x64 a shapeCasts_S5000x64_S5000x64) (shapeCast S5000x64 xs shapeCasts_S5000x64_S5000x64)) j
      = FloatOps.mulf (n k) (FloatOps.addf (a j) (xs j)) := by
  show FloatOps.mulf (broadcastTo S5000x64 (shapeCast S5000x1 n shapeCasts_S5000x1_S5000x1) broadcasts_S5000x1_S5000x64 j)
    (FloatOps.addf (shapeCast S5000x64 a shapeCasts_S5000x64_S5000x64 j) (shapeCast S5000x64 xs shapeCasts_S5000x64_S5000x64 j)) = _
  rw [colblk_apply n j k hk0 hk1, shapeCast_self, shapeCast_self]

end Cert.KernelIdeal.Hand

end
-- ==== Proof.Scale1.lean ====
/-
  Region 1 (a row-scaling kernel over a grid of 10 row blocks of 5000): its output array after the region is
  `scaleG n h` of the two arrays it reads, whatever buffer contents `V` the region is entered from.

  At grid point `t` the body multiplies the [5000, 64] block of `h` elementwise by the [5000, 1] block of `n` broadcast along
  the rows; all three windows sit at block row `t`, so entry (p, q) of the block written back is entry (5000 t + p, q) of
  `scaleG n h`; the ten blocks tile the 50000 rows.
-/
import proofs.«152417_j22368189678004_1_alg».proof.Proof.KernelIdealFrameP
import proofs.«152417_j22368189678004_1_alg».proof.Proof.Spec
import proofs.«152417_j22368189678004_1_alg».proof.Proof.PayRows
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]
variable (V : (c : Dev nD) → (b : Ref sig .tc) → Buf (Elt F) ((c : Thread nD τ).loc b))

theorem zero2_1 : (![0, 0] : Fin 2 → Nat) = fun _ => 0 := funext fun a => by fin_cases a <;> rfl

/-- The three windows' block indices over the grid: all at block row `t`, column block 0. -/
theorem idx_facts1 : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of `scaleG` of the region's two input arrays. -/
theorem flushed1 (c : Dev nD) (t : Fin cfg1.N) :
    (dat1 V c).flushed 2 t = ((cfg1.win 2).blk t).view.read (Elt F) (scaleG (V c main_v11) (V c main_v13)) := by
  show (cfg1.win 2).cut (grid1.coords t) ((dat1 V c).after 2 t) = _
  rw [after1_2]
  unfold out1_2
  rw [View.canon_unit_zero zero2_1]
  simp only [View.ld_unit_zero (S := S5000x64) zero2_1, View.ld_unit_zero (S := S5000x1) zero2_1]
  obtain ⟨e0, e1, e2, e3, e4, e5⟩ := idx_facts1 t
  funext j
  have hj0 : (j 0).val < 5000 := (j 0).isLt
  have hj1 : (j 1).val < 64 := (j 1).isLt
  rw [View.read_apply]
  -- the column block's entry in row `j 0`, and the array column's entry in the row block `t` puts it at
  let kb : S5000x1.Idx := fun a => match a with
    | ⟨0, _⟩ => ⟨(j 0).val, hj0⟩
    | ⟨1, _⟩ => ⟨0, Nat.one_pos⟩
  let ka : S50000x1.Idx := fun a => match a with
    | ⟨0, _⟩ => ⟨((((cfg1.win 2).blk t).view.emb j) 0).val, ((((cfg1.win 2).blk t).view.emb j) 0).isLt⟩
    | ⟨1, _⟩ => ⟨0, Nat.one_pos⟩
  show k1_pay1 (iblk1 V c 1 t) (iblk1 V c 0 t) j = scaleG (V c main_v11) (V c main_v13) (((cfg1.win 2).blk t).view.emb j)
  refine (rowscale_apply (iblk1 V c 1 t) (iblk1 V c 0 t) j kb rfl rfl).trans ?_
  refine Eq.trans ?_ (scaleG_apply (V c main_v11) (V c main_v13) (((cfg1.win 2).blk t).view.emb j) ka rfl rfl).symm
  show FloatOps.mulf (V c main_v11 (((cfg1.win 1).blk t).view.emb kb)) (V c main_v13 (((cfg1.win 0).blk t).view.emb j))
    = FloatOps.mulf (V c main_v11 ka) (V c main_v13 (((cfg1.win 2).blk t).view.emb j))
  have h1 : ((cfg1.win 1).blk t).view.emb kb = ka := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  rw [h1, h0]

/-- An index of the output array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v14).slice (win1_2.rect t)).set ↔ _
  rw [View.set_slice_whole, Rect.mem_set_unit]
  exact Iff.rfl

/-- The output array after the region: row `r` lies in the block of point `r / 5000`, so the ten blocks cover it. -/
theorem final1 (c : Dev nD) : (dat1 V c).arrAt 2 cfg1.N = scaleG (V c main_v11) (V c main_v13) :=
  (dat1 V c).arrAt_eq_of_cover 2 (scaleG (V c main_v11) (V c main_v13)) (fun t _ => flushed1 V c t) fun i => by
    have hi0 : (i 0).val < 50000 := (i 0).isLt
    have hi1 : (i 1).val < 64 := (i 1).isLt
    have hN : cfg1.N = 10 := N_1
    let t : Fin cfg1.N := ⟨(i 0).val / 5000, by rw [hN]; omega⟩
    obtain ⟨-, -, -, -, e4, e5⟩ := idx_facts1 t
    have e4' : win1_2.index t (0 : Fin 2) = (i 0).val / 5000 := e4
    refine ⟨t, flush1_2 t, ?_⟩
    rw [mem_blk1]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 64 ≤ (i 1).val ∧ (i 1).val < win1_2.index t (1 : Fin 2) * 64 + 64; omega

end Cert.KernelIdeal.Hand

end
-- ==== Proof.Combine2.lean ====
/-
  Region 2 (a combining kernel over a grid of 10 row blocks of 5000): its output array after the region is
  `combineG a xs n` of the three arrays it reads, whatever buffer contents `V` the region is entered from.

  At grid point `t` the body adds the [5000, 64] blocks of `a` and `xs` and multiplies the sum elementwise by the [5000, 1] block
  of `n` broadcast along the rows; all four windows sit at block row `t`, so entry (p, q) of the block written back is
  entry (5000 t + p, q) of `combineG a xs n`; the ten blocks tile the 50000 rows.
-/
import proofs.«152417_j22368189678004_1_alg».proof.Proof.KernelIdealFrameP
import proofs.«152417_j22368189678004_1_alg».proof.Proof.Spec
import proofs.«152417_j22368189678004_1_alg».proof.Proof.PayRows
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]
variable (V : (c : Dev nD) → (b : Ref sig .tc) → Buf (Elt F) ((c : Thread nD τ).loc b))

theorem zero2_2 : (![0, 0] : Fin 2 → Nat) = fun _ => 0 := funext fun a => by fin_cases a <;> rfl

/-- The four windows' block indices over the grid: all at block row `t`, column block 0. -/
theorem idx_facts2 : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

/-- What point `t` writes back is block `t` of `combineG` of the region's three input arrays. -/
theorem flushed2 (c : Dev nD) (t : Fin cfg2.N) :
    (dat2 V c).flushed 3 t
      = ((cfg2.win 3).blk t).view.read (Elt F) (combineG (V c main_v24) (V c main_v14) (V c main_v11)) := by
  show (cfg2.win 3).cut (grid2.coords t) ((dat2 V c).after 3 t) = _
  rw [after2_3]
  unfold out2_3
  rw [View.canon_unit_zero zero2_2]
  simp only [View.ld_unit_zero (S := S5000x64) zero2_2, View.ld_unit_zero (S := S5000x1) zero2_2]
  obtain ⟨e0, e1, e2, e3, e4, e5, e6, e7⟩ := idx_facts2 t
  funext j
  have hj0 : (j 0).val < 5000 := (j 0).isLt
  have hj1 : (j 1).val < 64 := (j 1).isLt
  rw [View.read_apply]
  -- the column block's entry in row `j 0`, and the array column's entry in the row block `t` puts it at
  let kb : S5000x1.Idx := fun a => match a with
    | ⟨0, _⟩ => ⟨(j 0).val, hj0⟩
    | ⟨1, _⟩ => ⟨0, Nat.one_pos⟩
  let ka : S50000x1.Idx := fun a => match a with
    | ⟨0, _⟩ => ⟨((((cfg2.win 3).blk t).view.emb j) 0).val, ((((cfg2.win 3).blk t).view.emb j) 0).isLt⟩
    | ⟨1, _⟩ => ⟨0, Nat.one_pos⟩
  show k2_pay1 (iblk2 V c 2 t) (iblk2 V c 0 t) (iblk2 V c 1 t) j
    = combineG (V c main_v24) (V c main_v14) (V c main_v11) (((cfg2.win 3).blk t).view.emb j)
  refine (rowcombine_apply (iblk2 V c 2 t) (iblk2 V c 0 t) (iblk2 V c 1 t) j kb rfl rfl).trans ?_
  refine Eq.trans ?_ (combineG_apply (V c main_v24) (V c main_v14) (V c main_v11) (((cfg2.win 3).blk t).view.emb j) ka rfl rfl).symm
  show FloatOps.mulf (V c main_v11 (((cfg2.win 2).blk t).view.emb kb))
      (FloatOps.addf (V c main_v24 (((cfg2.win 0).blk t).view.emb j)) (V c main_v14 (((cfg2.win 1).blk t).view.emb j)))
    = FloatOps.mulf (V c main_v11 ka)
      (FloatOps.addf (V c main_v24 (((cfg2.win 3).blk t).view.emb j)) (V c main_v14 (((cfg2.win 3).blk t).view.emb j)))
  have h2 : ((cfg2.win 2).blk t).view.emb kb = ka := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega
  rw [h2, h0, h1]

/-- An index of the output array is in point `t`'s block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v25).slice (win2_3.rect t)).set ↔ _
  rw [View.set_slice_whole, Rect.mem_set_unit]
  exact Iff.rfl

/-- The output array after the region: row `r` lies in the block of point `r / 5000`, so the ten blocks cover it. -/
theorem final2 (c : Dev nD) : (dat2 V c).arrAt 3 cfg2.N = combineG (V c main_v24) (V c main_v14) (V c main_v11) :=
  (dat2 V c).arrAt_eq_of_cover 3 (combineG (V c main_v24) (V c main_v14) (V c main_v11)) (fun t _ => flushed2 V c t) fun i => by
    have hi0 : (i 0).val < 50000 := (i 0).isLt
    have hi1 : (i 1).val < 64 := (i 1).isLt
    have hN : cfg2.N = 10 := N_2
    let t : Fin cfg2.N := ⟨(i 0).val / 5000, by rw [hN]; omega⟩
    obtain ⟨-, -, -, -, -, -, e6, e7⟩ := idx_facts2 t
    have e6' : win2_3.index t (0 : Fin 2) = (i 0).val / 5000 := e6
    refine ⟨t, flush2_3 t, ?_⟩
    rw [mem_blk2]
    intro a
    match a with
    | ⟨0, _⟩ => show win2_3.index t (0 : Fin 2) * 5000 ≤ (i 0).val ∧ (i 0).val < win2_3.index t (0 : Fin 2) * 5000 + 5000; omega
    | ⟨1, _⟩ => show win2_3.index t (1 : Fin 2) * 64 ≤ (i 1).val ∧ (i 1).val < win2_3.index t (1 : Fin 2) * 64 + 64; omega

end Cert.KernelIdeal.Hand

end
-- ==== Proof.Scale3.lean ====
/-
  Region 3 (a row-scaling kernel over a grid of 10 row blocks of 5000): its output array after the region is
  `scaleG n h` of the two arrays it reads, whatever buffer contents `V` the region is entered from.

  At grid point `t` the body multiplies the [5000, 64] block of `h` elementwise by the [5000, 1] block of `n` broadcast along
  the rows; all three windows sit at block row `t`, so entry (p, q) of the block written back is entry (5000 t + p, q) of
  `scaleG n h`; the ten blocks tile the 50000 rows.
-/
import proofs.«152417_j22368189678004_1_alg».proof.Proof.KernelIdealFrameP
import proofs.«152417_j22368189678004_1_alg».proof.Proof.Spec
import proofs.«152417_j22368189678004_1_alg».proof.Proof.PayRows
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]
variable (V : (c : Dev nD) → (b : Ref sig .tc) → Buf (Elt F) ((c : Thread nD τ).loc b))

theorem zero2_3 : (![0, 0] : Fin 2 → Nat) = fun _ => 0 := funext fun a => by fin_cases a <;> rfl

/-- The three windows' block indices over the grid: all at block row `t`, column block 0. -/
theorem idx_facts3 : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of `scaleG` of the region's two input arrays. -/
theorem flushed3 (c : Dev nD) (t : Fin cfg3.N) :
    (dat3 V c).flushed 2 t = ((cfg3.win 2).blk t).view.read (Elt F) (scaleG (V c main_v11) (V c main_v25)) := by
  show (cfg3.win 2).cut (grid3.coords t) ((dat3 V c).after 2 t) = _
  rw [after3_2]
  unfold out3_2
  rw [View.canon_unit_zero zero2_3]
  simp only [View.ld_unit_zero (S := S5000x64) zero2_3, View.ld_unit_zero (S := S5000x1) zero2_3]
  obtain ⟨e0, e1, e2, e3, e4, e5⟩ := idx_facts3 t
  funext j
  have hj0 : (j 0).val < 5000 := (j 0).isLt
  have hj1 : (j 1).val < 64 := (j 1).isLt
  rw [View.read_apply]
  -- the column block's entry in row `j 0`, and the array column's entry in the row block `t` puts it at
  let kb : S5000x1.Idx := fun a => match a with
    | ⟨0, _⟩ => ⟨(j 0).val, hj0⟩
    | ⟨1, _⟩ => ⟨0, Nat.one_pos⟩
  let ka : S50000x1.Idx := fun a => match a with
    | ⟨0, _⟩ => ⟨((((cfg3.win 2).blk t).view.emb j) 0).val, ((((cfg3.win 2).blk t).view.emb j) 0).isLt⟩
    | ⟨1, _⟩ => ⟨0, Nat.one_pos⟩
  show k3_pay1 (iblk3 V c 1 t) (iblk3 V c 0 t) j = scaleG (V c main_v11) (V c main_v25) (((cfg3.win 2).blk t).view.emb j)
  refine (rowscale_apply (iblk3 V c 1 t) (iblk3 V c 0 t) j kb rfl rfl).trans ?_
  refine Eq.trans ?_ (scaleG_apply (V c main_v11) (V c main_v25) (((cfg3.win 2).blk t).view.emb j) ka rfl rfl).symm
  show FloatOps.mulf (V c main_v11 (((cfg3.win 1).blk t).view.emb kb)) (V c main_v25 (((cfg3.win 0).blk t).view.emb j))
    = FloatOps.mulf (V c main_v11 ka) (V c main_v25 (((cfg3.win 2).blk t).view.emb j))
  have h1 : ((cfg3.win 1).blk t).view.emb kb = ka := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 1 + 1 * 0 = 0; omega
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  rw [h1, h0]

/-- An index of the output array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v26).slice (win3_2.rect t)).set ↔ _
  rw [View.set_slice_whole, Rect.mem_set_unit]
  exact Iff.rfl

/-- The output array after the region: row `r` lies in the block of point `r / 5000`, so the ten blocks cover it. -/
theorem final3 (c : Dev nD) : (dat3 V c).arrAt 2 cfg3.N = scaleG (V c main_v11) (V c main_v25) :=
  (dat3 V c).arrAt_eq_of_cover 2 (scaleG (V c main_v11) (V c main_v25)) (fun t _ => flushed3 V c t) fun i => by
    have hi0 : (i 0).val < 50000 := (i 0).isLt
    have hi1 : (i 1).val < 64 := (i 1).isLt
    have hN : cfg3.N = 10 := N_3
    let t : Fin cfg3.N := ⟨(i 0).val / 5000, by rw [hN]; omega⟩
    obtain ⟨-, -, -, -, e4, e5⟩ := idx_facts3 t
    have e4' : win3_2.index t (0 : Fin 2) = (i 0).val / 5000 := e4
    refine ⟨t, flush3_2 t, ?_⟩
    rw [mem_blk3]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 64 ≤ (i 1).val ∧ (i 1).val < win3_2.index t (1 : Fin 2) * 64 + 64; omega

end Cert.KernelIdeal.Hand

end
-- ==== Proof.Combine4.lean ====
/-
  Region 4 (a combining kernel over a grid of 10 row blocks of 5000): its output array after the region is
  `combineG a xs n` of the three arrays it reads, whatever buffer contents `V` the region is entered from.

  At grid point `t` the body adds the [5000, 64] blocks of `a` and `xs` and multiplies the sum elementwise by the [5000, 1] block
  of `n` broadcast along the rows; all four windows sit at block row `t`, so entry (p, q) of the block written back is
  entry (5000 t + p, q) of `combineG a xs n`; the ten blocks tile the 50000 rows.
-/
import proofs.«152417_j22368189678004_1_alg».proof.Proof.KernelIdealFrameP
import proofs.«152417_j22368189678004_1_alg».proof.Proof.Spec
import proofs.«152417_j22368189678004_1_alg».proof.Proof.PayRows
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]
variable (V : (c : Dev nD) → (b : Ref sig .tc) → Buf (Elt F) ((c : Thread nD τ).loc b))

theorem zero2_4 : (![0, 0] : Fin 2 → Nat) = fun _ => 0 := funext fun a => by fin_cases a <;> rfl

/-- The four windows' block indices over the grid: all at block row `t`, column block 0. -/
theorem idx_facts4 : ∀ t : Fin cfg4.N, win4_0.index t (0 : Fin 2) = win4_3.index t (0 : Fin 2)
    ∧ win4_0.index t (1 : Fin 2) = 0
    ∧ win4_1.index t (0 : Fin 2) = win4_3.index t (0 : Fin 2)
    ∧ win4_1.index t (1 : Fin 2) = 0
    ∧ win4_2.index t (0 : Fin 2) = win4_3.index t (0 : Fin 2)
    ∧ win4_2.index t (1 : Fin 2) = 0
    ∧ win4_3.index t (0 : Fin 2) = t.val
    ∧ win4_3.index t (1 : Fin 2) = 0 :=
  (by decide +kernel : ∀ t : Fin grid4.N, _)

/-- What point `t` writes back is block `t` of `combineG` of the region's three input arrays. -/
theorem flushed4 (c : Dev nD) (t : Fin cfg4.N) :
    (dat4 V c).flushed 3 t
      = ((cfg4.win 3).blk t).view.read (Elt F) (combineG (V c main_v36) (V c main_v26) (V c main_v11)) := by
  show (cfg4.win 3).cut (grid4.coords t) ((dat4 V c).after 3 t) = _
  rw [after4_3]
  unfold out4_3
  rw [View.canon_unit_zero zero2_4]
  simp only [View.ld_unit_zero (S := S5000x64) zero2_4, View.ld_unit_zero (S := S5000x1) zero2_4]
  obtain ⟨e0, e1, e2, e3, e4, e5, e6, e7⟩ := idx_facts4 t
  funext j
  have hj0 : (j 0).val < 5000 := (j 0).isLt
  have hj1 : (j 1).val < 64 := (j 1).isLt
  rw [View.read_apply]
  -- the column block's entry in row `j 0`, and the array column's entry in the row block `t` puts it at
  let kb : S5000x1.Idx := fun a => match a with
    | ⟨0, _⟩ => ⟨(j 0).val, hj0⟩
    | ⟨1, _⟩ => ⟨0, Nat.one_pos⟩
  let ka : S50000x1.Idx := fun a => match a with
    | ⟨0, _⟩ => ⟨((((cfg4.win 3).blk t).view.emb j) 0).val, ((((cfg4.win 3).blk t).view.emb j) 0).isLt⟩
    | ⟨1, _⟩ => ⟨0, Nat.one_pos⟩
  show k4_pay1 (iblk4 V c 2 t) (iblk4 V c 0 t) (iblk4 V c 1 t) j
    = combineG (V c main_v36) (V c main_v26) (V c main_v11) (((cfg4.win 3).blk t).view.emb j)
  refine (rowcombine_apply (iblk4 V c 2 t) (iblk4 V c 0 t) (iblk4 V c 1 t) j kb rfl rfl).trans ?_
  refine Eq.trans ?_ (combineG_apply (V c main_v36) (V c main_v26) (V c main_v11) (((cfg4.win 3).blk t).view.emb j) ka rfl rfl).symm
  show FloatOps.mulf (V c main_v11 (((cfg4.win 2).blk t).view.emb kb))
      (FloatOps.addf (V c main_v36 (((cfg4.win 0).blk t).view.emb j)) (V c main_v26 (((cfg4.win 1).blk t).view.emb j)))
    = FloatOps.mulf (V c main_v11 ka)
      (FloatOps.addf (V c main_v36 (((cfg4.win 3).blk t).view.emb j)) (V c main_v26 (((cfg4.win 3).blk t).view.emb j)))
  have h2 : ((cfg4.win 2).blk t).view.emb kb = ka := by
    funext a; apply Fin.ext
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 1 + 1 * 0 = 0; omega
  have h0 : ((cfg4.win 0).blk t).view.emb j = ((cfg4.win 3).blk t).view.emb j := by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * (j 1).val = win4_3.index t (1 : Fin 2) * 64 + 1 * (j 1).val; omega
  have h1 : ((cfg4.win 1).blk t).view.emb j = ((cfg4.win 3).blk t).view.emb j := by
    funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 64 + 1 * (j 1).val = win4_3.index t (1 : Fin 2) * 64 + 1 * (j 1).val; omega
  rw [h2, h0, h1]

/-- An index of the output array is in point `t`'s block iff each coordinate is in the block's range on its axis. -/
theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v37).slice (win4_3.rect t)).set ↔ _
  rw [View.set_slice_whole, Rect.mem_set_unit]
  exact Iff.rfl

/-- The output array after the region: row `r` lies in the block of point `r / 5000`, so the ten blocks cover it. -/
theorem final4 (c : Dev nD) : (dat4 V c).arrAt 3 cfg4.N = combineG (V c main_v36) (V c main_v26) (V c main_v11) :=
  (dat4 V c).arrAt_eq_of_cover 3 (combineG (V c main_v36) (V c main_v26) (V c main_v11)) (fun t _ => flushed4 V c t) fun i => by
    have hi0 : (i 0).val < 50000 := (i 0).isLt
    have hi1 : (i 1).val < 64 := (i 1).isLt
    have hN : cfg4.N = 10 := N_4
    let t : Fin cfg4.N := ⟨(i 0).val / 5000, by rw [hN]; omega⟩
    obtain ⟨-, -, -, -, -, -, e6, e7⟩ := idx_facts4 t
    have e6' : win4_3.index t (0 : Fin 2) = (i 0).val / 5000 := e6
    refine ⟨t, flush4_3 t, ?_⟩
    rw [mem_blk4]
    intro a
    match a with
    | ⟨0, _⟩ => show win4_3.index t (0 : Fin 2) * 5000 ≤ (i 0).val ∧ (i 0).val < win4_3.index t (0 : Fin 2) * 5000 + 5000; omega
    | ⟨1, _⟩ => show win4_3.index t (1 : Fin 2) * 64 ≤ (i 1).val ∧ (i 1).val < win4_3.index t (1 : Fin 2) * 64 + 64; omega

end Cert.KernelIdeal.Hand

end
-- ==== Proof.Scale5.lean ====
/-
  Region 5 (a row-scaling kernel over a grid of 10 row blocks of 5000): its output array after the region is
  `scaleG n h` of the two arrays it reads, whatever buffer contents `V` the region is entered from.

  At grid point `t` the body multiplies the [5000, 64] block of `h` elementwise by the [5000, 1] block of `n` broadcast along
  the rows; all three windows sit at block row `t`, so entry (p, q) of the block written back is entry (5000 t + p, q) of
  `scaleG n h`; the ten blocks tile the 50000 rows.
-/
import proofs.«152417_j22368189678004_1_alg».proof.Proof.KernelIdealFrameP
import proofs.«152417_j22368189678004_1_alg».proof.Proof.Spec
import proofs.«152417_j22368189678004_1_alg».proof.Proof.PayRows
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]
variable (V : (c : Dev nD) → (b : Ref sig .tc) → Buf (Elt F) ((c : Thread nD τ).loc b))

theorem zero2_5 : (![0, 0] : Fin 2 → Nat) = fun _ => 0 := funext fun a => by fin_cases a <;> rfl

/-- The three windows' block indices over the grid: all at block row `t`, column block 0. -/
theorem idx_facts5 : ∀ t : Fin cfg5.N, win5_0.index t (0 : Fin 2) = win5_2.index t (0 : Fin 2)
    ∧ win5_0.index t (1 : Fin 2) = 0
    ∧ win5_1.index t (0 : Fin 2) = win5_2.index t (0 : Fin 2)
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of `scaleG` of the region's two input arrays. -/
theorem flushed5 (c : Dev nD) (t : Fin cfg5.N) :
    (dat5 V c).flushed 2 t = ((cfg5.win 2).blk t).view.read (Elt F) (scaleG (V c main_v11) (V c main_v37)) := by
  show (cfg5.win 2).cut (grid5.coords t) ((dat5 V c).after 2 t) = _
  rw [after5_2]
  unfold out5_2
  rw [View.canon_unit_zero zero2_5]
  simp only [View.ld_unit_zero (S := S5000x64) zero2_5, View.ld_unit_zero (S := S5000x1) zero2_5]
  obtain ⟨e0, e1, e2, e3, e4, e5⟩ := idx_facts5 t
  funext j
  have hj0 : (j 0).val < 5000 := (j 0).isLt
  have hj1 : (j 1).val < 64 := (j 1).isLt
  rw [View.read_apply]
  -- the column block's entry in row `j 0`, and the array column's entry in the row block `t` puts it at
  let kb : S5000x1.Idx := fun a => match a with
    | ⟨0, _⟩ => ⟨(j 0).val, hj0⟩
    | ⟨1, _⟩ => ⟨0, Nat.one_pos⟩
  let ka : S50000x1.Idx := fun a => match a with
    | ⟨0, _⟩ => ⟨((((cfg5.win 2).blk t).view.emb j) 0).val, ((((cfg5.win 2).blk t).view.emb j) 0).isLt⟩
    | ⟨1, _⟩ => ⟨0, Nat.one_pos⟩
  show k5_pay1 (iblk5 V c 1 t) (iblk5 V c 0 t) j = scaleG (V c main_v11) (V c main_v37) (((cfg5.win 2).blk t).view.emb j)
  refine (rowscale_apply (iblk5 V c 1 t) (iblk5 V c 0 t) j kb rfl rfl).trans ?_
  refine Eq.trans ?_ (scaleG_apply (V c main_v11) (V c main_v37) (((cfg5.win 2).blk t).view.emb j) ka rfl rfl).symm
  show FloatOps.mulf (V c main_v11 (((cfg5.win 1).blk t).view.emb kb)) (V c main_v37 (((cfg5.win 0).blk t).view.emb j))
    = FloatOps.mulf (V c main_v11 ka) (V c main_v37 (((cfg5.win 2).blk t).view.emb j))
  have h1 : ((cfg5.win 1).blk t).view.emb kb = ka := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 1 + 1 * 0 = 0; omega
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  rw [h1, h0]

/-- An index of the output array is in point `t`'s block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v38).slice (win5_2.rect t)).set ↔ _
  rw [View.set_slice_whole, Rect.mem_set_unit]
  exact Iff.rfl

/-- The output array after the region: row `r` lies in the block of point `r / 5000`, so the ten blocks cover it. -/
theorem final5 (c : Dev nD) : (dat5 V c).arrAt 2 cfg5.N = scaleG (V c main_v11) (V c main_v37) :=
  (dat5 V c).arrAt_eq_of_cover 2 (scaleG (V c main_v11) (V c main_v37)) (fun t _ => flushed5 V c t) fun i => by
    have hi0 : (i 0).val < 50000 := (i 0).isLt
    have hi1 : (i 1).val < 64 := (i 1).isLt
    have hN : cfg5.N = 10 := N_5
    let t : Fin cfg5.N := ⟨(i 0).val / 5000, by rw [hN]; omega⟩
    obtain ⟨-, -, -, -, e4, e5⟩ := idx_facts5 t
    have e4' : win5_2.index t (0 : Fin 2) = (i 0).val / 5000 := e4
    refine ⟨t, flush5_2 t, ?_⟩
    rw [mem_blk5]
    intro a
    match a with
    | ⟨0, _⟩ => show win5_2.index t (0 : Fin 2) * 5000 ≤ (i 0).val ∧ (i 0).val < win5_2.index t (0 : Fin 2) * 5000 + 5000; omega
    | ⟨1, _⟩ => show win5_2.index t (1 : Fin 2) * 64 ≤ (i 1).val ∧ (i 1).val < win5_2.index t (1 : Fin 2) * 64 + 64; omega

end Cert.KernelIdeal.Hand

end
-- ==== Proof.Combine6.lean ====
/-
  Region 6 (a combining kernel over a grid of 10 row blocks of 5000): its output array after the region is
  `combineG a xs n` of the three arrays it reads, whatever buffer contents `V` the region is entered from.

  At grid point `t` the body adds the [5000, 64] blocks of `a` and `xs` and multiplies the sum elementwise by the [5000, 1] block
  of `n` broadcast along the rows; all four windows sit at block row `t`, so entry (p, q) of the block written back is
  entry (5000 t + p, q) of `combineG a xs n`; the ten blocks tile the 50000 rows.
-/
import proofs.«152417_j22368189678004_1_alg».proof.Proof.KernelIdealFrameP
import proofs.«152417_j22368189678004_1_alg».proof.Proof.Spec
import proofs.«152417_j22368189678004_1_alg».proof.Proof.PayRows
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.GenP

variable {F : FTy → Type} [FloatOps F]
variable (V : (c : Dev nD) → (b : Ref sig .tc) → Buf (Elt F) ((c : Thread nD τ).loc b))

theorem zero2_6 : (![0, 0] : Fin 2 → Nat) = fun _ => 0 := funext fun a => by fin_cases a <;> rfl

/-- The four windows' block indices over the grid: all at block row `t`, column block 0. -/
theorem idx_facts6 : ∀ t : Fin cfg6.N, win6_0.index t (0 : Fin 2) = win6_3.index t (0 : Fin 2)
    ∧ win6_0.index t (1 : Fin 2) = 0
    ∧ win6_1.index t (0 : Fin 2) = win6_3.index t (0 : Fin 2)
    ∧ win6_1.index t (1 : Fin 2) = 0
    ∧ win6_2.index t (0 : Fin 2) = win6_3.index t (0 : Fin 2)
    ∧ win6_2.index t (1 : Fin 2) = 0
    ∧ win6_3.index t (0 : Fin 2) = t.val
    ∧ win6_3.index t (1 : Fin 2) = 0 :=
  (by decide +kernel : ∀ t : Fin grid6.N, _)

/-- What point `t` writes back is block `t` of `combineG` of the region's three input arrays. -/
theorem flushed6 (c : Dev nD) (t : Fin cfg6.N) :
    (dat6 V c).flushed 3 t
      = ((cfg6.win 3).blk t).view.read (Elt F) (combineG (V c main_v48) (V c main_v38) (V c main_v11)) := by
  show (cfg6.win 3).cut (grid6.coords t) ((dat6 V c).after 3 t) = _
  rw [after6_3]
  unfold out6_3
  rw [View.canon_unit_zero zero2_6]
  simp only [View.ld_unit_zero (S := S5000x64) zero2_6, View.ld_unit_zero (S := S5000x1) zero2_6]
  obtain ⟨e0, e1, e2, e3, e4, e5, e6, e7⟩ := idx_facts6 t
  funext j
  have hj0 : (j 0).val < 5000 := (j 0).isLt
  have hj1 : (j 1).val < 64 := (j 1).isLt
  rw [View.read_apply]
  -- the column block's entry in row `j 0`, and the array column's entry in the row block `t` puts it at
  let kb : S5000x1.Idx := fun a => match a with
    | ⟨0, _⟩ => ⟨(j 0).val, hj0⟩
    | ⟨1, _⟩ => ⟨0, Nat.one_pos⟩
  let ka : S50000x1.Idx := fun a => match a with
    | ⟨0, _⟩ => ⟨((((cfg6.win 3).blk t).view.emb j) 0).val, ((((cfg6.win 3).blk t).view.emb j) 0).isLt⟩
    | ⟨1, _⟩ => ⟨0, Nat.one_pos⟩
  show k6_pay1 (iblk6 V c 2 t) (iblk6 V c 0 t) (iblk6 V c 1 t) j
    = combineG (V c main_v48) (V c main_v38) (V c main_v11) (((cfg6.win 3).blk t).view.emb j)
  refine (rowcombine_apply (iblk6 V c 2 t) (iblk6 V c 0 t) (iblk6 V c 1 t) j kb rfl rfl).trans ?_
  refine Eq.trans ?_ (combineG_apply (V c main_v48) (V c main_v38) (V c main_v11) (((cfg6.win 3).blk t).view.emb j) ka rfl rfl).symm
  show FloatOps.mulf (V c main_v11 (((cfg6.win 2).blk t).view.emb kb))
      (FloatOps.addf (V c main_v48 (((cfg6.win 0).blk t).view.emb j)) (V c main_v38 (((cfg6.win 1).blk t).view.emb j)))
    = FloatOps.mulf (V c main_v11 ka)
      (FloatOps.addf (V c main_v48 (((cfg6.win 3).blk t).view.emb j)) (V c main_v38 (((cfg6.win 3).blk t).view.emb j)))
  have h2 : ((cfg6.win 2).blk t).view.emb kb = ka := by
    funext a; apply Fin.ext
    match a with
    | ⟨0, _⟩ => show win6_2.index t (0 : Fin 2) * 5000 + 1 * (j 0).val = win6_3.index t (0 : Fin 2) * 5000 + 1 * (j 0).val; omega
    | ⟨1, _⟩ => show win6_2.index t (1 : Fin 2) * 1 + 1 * 0 = 0; omega
  have h0 : ((cfg6.win 0).blk t).view.emb j = ((cfg6.win 3).blk t).view.emb j := by
    funext a; apply Fin.ext
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 64 + 1 * (j 1).val = win6_3.index t (1 : Fin 2) * 64 + 1 * (j 1).val; omega
  have h1 : ((cfg6.win 1).blk t).view.emb j = ((cfg6.win 3).blk t).view.emb j := by
    funext a; apply Fin.ext
    match a with
    | ⟨0, _⟩ => show win6_1.index t (0 : Fin 2) * 5000 + 1 * (j 0).val = win6_3.index t (0 : Fin 2) * 5000 + 1 * (j 0).val; omega
    | ⟨1, _⟩ => show win6_1.index t (1 : Fin 2) * 64 + 1 * (j 1).val = win6_3.index t (1 : Fin 2) * 64 + 1 * (j 1).val; omega
  rw [h2, h0, h1]

/-- An index of the output array is in point `t`'s block iff each coordinate is in the block's range on its axis. -/
theorem mem_blk6 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v49).slice (win6_3.rect t)).set ↔ _
  rw [View.set_slice_whole, Rect.mem_set_unit]
  exact Iff.rfl

/-- The output array after the region: row `r` lies in the block of point `r / 5000`, so the ten blocks cover it. -/
theorem final6 (c : Dev nD) : (dat6 V c).arrAt 3 cfg6.N = combineG (V c main_v48) (V c main_v38) (V c main_v11) :=
  (dat6 V c).arrAt_eq_of_cover 3 (combineG (V c main_v48) (V c main_v38) (V c main_v11)) (fun t _ => flushed6 V c t) fun i => by
    have hi0 : (i 0).val < 50000 := (i 0).isLt
    have hi1 : (i 1).val < 64 := (i 1).isLt
    have hN : cfg6.N = 10 := N_6
    let t : Fin cfg6.N := ⟨(i 0).val / 5000, by rw [hN]; omega⟩
    obtain ⟨-, -, -, -, -, -, e6, e7⟩ := idx_facts6 t
    have e6' : win6_3.index t (0 : Fin 2) = (i 0).val / 5000 := e6
    refine ⟨t, flush6_3 t, ?_⟩
    rw [mem_blk6]
    intro a
    match a with
    | ⟨0, _⟩ => show win6_3.index t (0 : Fin 2) * 5000 ≤ (i 0).val ∧ (i 0).val < win6_3.index t (0 : Fin 2) * 5000 + 5000; omega
    | ⟨1, _⟩ => show win6_3.index t (1 : Fin 2) * 64 ≤ (i 1).val ∧ (i 1).val < win6_3.index t (1 : Fin 2) * 64 + 64; omega

end Cert.KernelIdeal.Hand

end
-- ==== Proof.Chain.lean ====
/-
  The kernel program's result buffer after the run, on the extended reals: three layers over `x · W + b`.

  The buffer contents at the eleven segment boundaries are followed from the launch: the first host stretch leaves the edge
  list's two rows, the normalising column and the bias reshaped to a row; the embedding region leaves `x · W + b`; then three
  times a scaling region, a host stretch that gathers along the edges and scatter-adds into zeros, and a combining region.
  The index vectors and the column are written once and read by every later segment, so each boundary carries them unchanged.
-/
import proofs.«152417_j22368189678004_1_alg».proof.Proof.KernelIdealFrameP
import proofs.«152417_j22368189678004_1_alg».proof.Proof.Spec
import proofs.«152417_j22368189678004_1_alg».proof.Proof.Embed0
import proofs.«152417_j22368189678004_1_alg».proof.Proof.Scale1
import proofs.«152417_j22368189678004_1_alg».proof.Proof.Combine2
import proofs.«152417_j22368189678004_1_alg».proof.Proof.Scale3
import proofs.«152417_j22368189678004_1_alg».proof.Proof.Combine4
import proofs.«152417_j22368189678004_1_alg».proof.Proof.Scale5
import proofs.«152417_j22368189678004_1_alg».proof.Proof.Combine6
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.GenP
open Cert.ReferenceIdeal.Read (val_main_v15)

variable (m : (ℓ : Loc nD τ sig) → Buf (Elt Ideal) ℓ) (ρ : Dev nD → PrngReg)

/-- The four argument arrays as launched. -/
abbrev argX (c : Dev nD) : (⟨S50000x128, .f32⟩ : BufTy).Contents (Elt Ideal) := m ((c : Thread nD τ).loc main_arg0)
abbrev argE (c : Dev nD) : (⟨S2x800000, .i32⟩ : BufTy).Contents (Elt Ideal) := m ((c : Thread nD τ).loc main_arg1)
abbrev argW (c : Dev nD) : (⟨S128x64, .f32⟩ : BufTy).Contents (Elt Ideal) := m ((c : Thread nD τ).loc main_arg2)
abbrev argB (c : Dev nD) : (⟨S64, .f32⟩ : BufTy).Contents (Elt Ideal) := m ((c : Thread nD τ).loc main_arg3)

/-- The edge list's rows, the normalising column, and the feature arrays after the embedding and after each layer. -/
abbrev rowsE (c : Dev nD) := rowOf (argE m c)
abbrev colsE (c : Dev nD) := colOf (argE m c)
abbrev normE (c : Dev nD) := normOfRow (rowsE m c)
abbrev feat0 (c : Dev nD) : (⟨S50000x64, .f32⟩ : BufTy).Contents (Elt Ideal) := val_main_v15 (F := Ideal) (argX m c) (argW m c) (argB m c)
abbrev feat1 (c : Dev nD) := layerG (normE m c) (rowsE m c) (colsE m c) (feat0 m c)
abbrev feat2 (c : Dev nD) := layerG (normE m c) (rowsE m c) (colsE m c) (feat1 m c)
abbrev feat3 (c : Dev nD) := layerG (normE m c) (rowsE m c) (colsE m c) (feat2 m c)

/-! ## After the first host stretch -/

theorem w1_row (c : Dev nD) : W1 m ρ c (Proc.devRef .tc main_v1) = rowsE m c := by
  show StableHlo.after hostOps0 (W0 m ρ c) (Proc.devRef .tc main_v1) = _
  after_results
  rfl
theorem w1_col (c : Dev nD) : W1 m ρ c (Proc.devRef .tc main_v3) = colsE m c := by
  show StableHlo.after hostOps0 (W0 m ρ c) (Proc.devRef .tc main_v3) = _
  after_results
  rfl
theorem w1_norm (c : Dev nD) : W1 m ρ c (Proc.devRef .tc main_v11) = normE m c := by
  show StableHlo.after hostOps0 (W0 m ρ c) (Proc.devRef .tc main_v11) = _
  after_results
  rfl
theorem w1_bias (c : Dev nD) : W1 m ρ c (Proc.devRef .tc main_v12) = shapeCast S1x64 (argB m c) shapeCasts_S64_S1x64 := by
  show StableHlo.after hostOps0 (W0 m ρ c) (Proc.devRef .tc main_v12) = _
  after_results
  rfl
theorem w1_x (c : Dev nD) : W1 m ρ c (Proc.devRef .tc main_arg0) = argX m c := by
  show StableHlo.after hostOps0 (W0 m ρ c) (Proc.devRef .tc main_arg0) = _
  after_results
theorem w1_w (c : Dev nD) : W1 m ρ c (Proc.devRef .tc main_arg2) = argW m c := by
  show StableHlo.after hostOps0 (W0 m ρ c) (Proc.devRef .tc main_arg2) = _
  after_results

/-! ## After the embedding region -/

theorem w2_feat (c : Dev nD) : W2 m ρ c (Proc.devRef .tc main_v13) = feat0 m c :=
  (W2_arr m ρ c 3).trans ((final0 (V1 m ρ) c (argB m c) (w1_bias m ρ c)).trans (by
    show val_main_v15 (F := Ideal) (W1 m ρ c (Proc.devRef .tc main_arg0)) (W1 m ρ c (Proc.devRef .tc main_arg2)) (argB m c) = _
    rw [w1_x m ρ c, w1_w m ρ c]))
theorem w2_row (c : Dev nD) : W2 m ρ c (Proc.devRef .tc main_v1) = rowsE m c :=
  (W2_of_ne m ρ c main_v1 (by decide)).trans (w1_row m ρ c)
theorem w2_col (c : Dev nD) : W2 m ρ c (Proc.devRef .tc main_v3) = colsE m c :=
  (W2_of_ne m ρ c main_v3 (by decide)).trans (w1_col m ρ c)
theorem w2_norm (c : Dev nD) : W2 m ρ c (Proc.devRef .tc main_v11) = normE m c :=
  (W2_of_ne m ρ c main_v11 (by decide)).trans (w1_norm m ρ c)

/-! ## Layer 1: scaling region, host stretch, combining region -/

theorem w3_xs (c : Dev nD) : W3 m ρ c (Proc.devRef .tc main_v14) = scaleG (normE m c) (feat0 m c) :=
  (W3_arr m ρ c 2).trans ((final1 (V2 m ρ) c).trans (by
    show scaleG (W2 m ρ c (Proc.devRef .tc main_v11)) (W2 m ρ c (Proc.devRef .tc main_v13)) = _
    rw [w2_norm m ρ c, w2_feat m ρ c]))
theorem w3_row (c : Dev nD) : W3 m ρ c (Proc.devRef .tc main_v1) = rowsE m c :=
  (W3_of_ne m ρ c main_v1 (by decide)).trans (w2_row m ρ c)
theorem w3_col (c : Dev nD) : W3 m ρ c (Proc.devRef .tc main_v3) = colsE m c :=
  (W3_of_ne m ρ c main_v3 (by decide)).trans (w2_col m ρ c)
theorem w3_norm (c : Dev nD) : W3 m ρ c (Proc.devRef .tc main_v11) = normE m c :=
  ((W3_arr m ρ c 1).trans (((dat1 (V2 m ρ) c).arrAt_in 1 rfl _).trans (A_eq1 (V2 m ρ) c 1))).trans (w2_norm m ρ c)

theorem w4_agg (c : Dev nD) : W4 m ρ c (Proc.devRef .tc main_v24) = aggOf (rowsE m c) (colsE m c) (scaleG (normE m c) (feat0 m c)) := by
  have e : W4 m ρ c (Proc.devRef .tc main_v24)
      = aggOf (W3 m ρ c (Proc.devRef .tc main_v1)) (W3 m ρ c (Proc.devRef .tc main_v3)) (W3 m ρ c (Proc.devRef .tc main_v14)) := by
    show StableHlo.after hostOps2 (W3 m ρ c) (Proc.devRef .tc main_v24) = _
    after_results
    rfl
  rw [e, w3_row m ρ c, w3_col m ρ c, w3_xs m ρ c]
theorem w4_xs (c : Dev nD) : W4 m ρ c (Proc.devRef .tc main_v14) = scaleG (normE m c) (feat0 m c) := by
  have e : W4 m ρ c (Proc.devRef .tc main_v14) = W3 m ρ c (Proc.devRef .tc main_v14) := by
    show StableHlo.after hostOps2 (W3 m ρ c) (Proc.devRef .tc main_v14) = _
    after_results
  rw [e, w3_xs m ρ c]
theorem w4_norm (c : Dev nD) : W4 m ρ c (Proc.devRef .tc main_v11) = normE m c := by
  have e : W4 m ρ c (Proc.devRef .tc main_v11) = W3 m ρ c (Proc.devRef .tc main_v11) := by
    show StableHlo.after hostOps2 (W3 m ρ c) (Proc.devRef .tc main_v11) = _
    after_results
  rw [e, w3_norm m ρ c]
theorem w4_row (c : Dev nD) : W4 m ρ c (Proc.devRef .tc main_v1) = rowsE m c := by
  have e : W4 m ρ c (Proc.devRef .tc main_v1) = W3 m ρ c (Proc.devRef .tc main_v1) := by
    show StableHlo.after hostOps2 (W3 m ρ c) (Proc.devRef .tc main_v1) = _
    after_results
  rw [e, w3_row m ρ c]
theorem w4_col (c : Dev nD) : W4 m ρ c (Proc.devRef .tc main_v3) = colsE m c := by
  have e : W4 m ρ c (Proc.devRef .tc main_v3) = W3 m ρ c (Proc.devRef .tc main_v3) := by
    show StableHlo.after hostOps2 (W3 m ρ c) (Proc.devRef .tc main_v3) = _
    after_results
  rw [e, w3_col m ρ c]

theorem w5_feat (c : Dev nD) : W5 m ρ c (Proc.devRef .tc main_v25) = feat1 m c :=
  (W5_arr m ρ c 3).trans ((final2 (V4 m ρ) c).trans (by
    show combineG (W4 m ρ c (Proc.devRef .tc main_v24)) (W4 m ρ c (Proc.devRef .tc main_v14)) (W4 m ρ c (Proc.devRef .tc main_v11)) = _
    rw [w4_agg m ρ c, w4_xs m ρ c, w4_norm m ρ c]
    rfl))
theorem w5_row (c : Dev nD) : W5 m ρ c (Proc.devRef .tc main_v1) = rowsE m c :=
  (W5_of_ne m ρ c main_v1 (by decide)).trans (w4_row m ρ c)
theorem w5_col (c : Dev nD) : W5 m ρ c (Proc.devRef .tc main_v3) = colsE m c :=
  (W5_of_ne m ρ c main_v3 (by decide)).trans (w4_col m ρ c)
theorem w5_norm (c : Dev nD) : W5 m ρ c (Proc.devRef .tc main_v11) = normE m c :=
  ((W5_arr m ρ c 2).trans (((dat2 (V4 m ρ) c).arrAt_in 2 rfl _).trans (A_eq2 (V4 m ρ) c 2))).trans (w4_norm m ρ c)

/-! ## Layer 2 -/

theorem w6_xs (c : Dev nD) : W6 m ρ c (Proc.devRef .tc main_v26) = scaleG (normE m c) (feat1 m c) :=
  (W6_arr m ρ c 2).trans ((final3 (V5 m ρ) c).trans (by
    show scaleG (W5 m ρ c (Proc.devRef .tc main_v11)) (W5 m ρ c (Proc.devRef .tc main_v25)) = _
    rw [w5_norm m ρ c, w5_feat m ρ c]))
theorem w6_row (c : Dev nD) : W6 m ρ c (Proc.devRef .tc main_v1) = rowsE m c :=
  (W6_of_ne m ρ c main_v1 (by decide)).trans (w5_row m ρ c)
theorem w6_col (c : Dev nD) : W6 m ρ c (Proc.devRef .tc main_v3) = colsE m c :=
  (W6_of_ne m ρ c main_v3 (by decide)).trans (w5_col m ρ c)
theorem w6_norm (c : Dev nD) : W6 m ρ c (Proc.devRef .tc main_v11) = normE m c :=
  ((W6_arr m ρ c 1).trans (((dat3 (V5 m ρ) c).arrAt_in 1 rfl _).trans (A_eq3 (V5 m ρ) c 1))).trans (w5_norm m ρ c)

theorem w7_agg (c : Dev nD) : W7 m ρ c (Proc.devRef .tc main_v36) = aggOf (rowsE m c) (colsE m c) (scaleG (normE m c) (feat1 m c)) := by
  have e : W7 m ρ c (Proc.devRef .tc main_v36)
      = aggOf (W6 m ρ c (Proc.devRef .tc main_v1)) (W6 m ρ c (Proc.devRef .tc main_v3)) (W6 m ρ c (Proc.devRef .tc main_v26)) := by
    show StableHlo.after hostOps4 (W6 m ρ c) (Proc.devRef .tc main_v36) = _
    after_results
    rfl
  rw [e, w6_row m ρ c, w6_col m ρ c, w6_xs m ρ c]
theorem w7_xs (c : Dev nD) : W7 m ρ c (Proc.devRef .tc main_v26) = scaleG (normE m c) (feat1 m c) := by
  have e : W7 m ρ c (Proc.devRef .tc main_v26) = W6 m ρ c (Proc.devRef .tc main_v26) := by
    show StableHlo.after hostOps4 (W6 m ρ c) (Proc.devRef .tc main_v26) = _
    after_results
  rw [e, w6_xs m ρ c]
theorem w7_norm (c : Dev nD) : W7 m ρ c (Proc.devRef .tc main_v11) = normE m c := by
  have e : W7 m ρ c (Proc.devRef .tc main_v11) = W6 m ρ c (Proc.devRef .tc main_v11) := by
    show StableHlo.after hostOps4 (W6 m ρ c) (Proc.devRef .tc main_v11) = _
    after_results
  rw [e, w6_norm m ρ c]
theorem w7_row (c : Dev nD) : W7 m ρ c (Proc.devRef .tc main_v1) = rowsE m c := by
  have e : W7 m ρ c (Proc.devRef .tc main_v1) = W6 m ρ c (Proc.devRef .tc main_v1) := by
    show StableHlo.after hostOps4 (W6 m ρ c) (Proc.devRef .tc main_v1) = _
    after_results
  rw [e, w6_row m ρ c]
theorem w7_col (c : Dev nD) : W7 m ρ c (Proc.devRef .tc main_v3) = colsE m c := by
  have e : W7 m ρ c (Proc.devRef .tc main_v3) = W6 m ρ c (Proc.devRef .tc main_v3) := by
    show StableHlo.after hostOps4 (W6 m ρ c) (Proc.devRef .tc main_v3) = _
    after_results
  rw [e, w6_col m ρ c]

theorem w8_feat (c : Dev nD) : W8 m ρ c (Proc.devRef .tc main_v37) = feat2 m c :=
  (W8_arr m ρ c 3).trans ((final4 (V7 m ρ) c).trans (by
    show combineG (W7 m ρ c (Proc.devRef .tc main_v36)) (W7 m ρ c (Proc.devRef .tc main_v26)) (W7 m ρ c (Proc.devRef .tc main_v11)) = _
    rw [w7_agg m ρ c, w7_xs m ρ c, w7_norm m ρ c]
    rfl))
theorem w8_row (c : Dev nD) : W8 m ρ c (Proc.devRef .tc main_v1) = rowsE m c :=
  (W8_of_ne m ρ c main_v1 (by decide)).trans (w7_row m ρ c)
theorem w8_col (c : Dev nD) : W8 m ρ c (Proc.devRef .tc main_v3) = colsE m c :=
  (W8_of_ne m ρ c main_v3 (by decide)).trans (w7_col m ρ c)
theorem w8_norm (c : Dev nD) : W8 m ρ c (Proc.devRef .tc main_v11) = normE m c :=
  ((W8_arr m ρ c 2).trans (((dat4 (V7 m ρ) c).arrAt_in 2 rfl _).trans (A_eq4 (V7 m ρ) c 2))).trans (w7_norm m ρ c)

/-! ## Layer 3 -/

theorem w9_xs (c : Dev nD) : W9 m ρ c (Proc.devRef .tc main_v38) = scaleG (normE m c) (feat2 m c) :=
  (W9_arr m ρ c 2).trans ((final5 (V8 m ρ) c).trans (by
    show scaleG (W8 m ρ c (Proc.devRef .tc main_v11)) (W8 m ρ c (Proc.devRef .tc main_v37)) = _
    rw [w8_norm m ρ c, w8_feat m ρ c]))
theorem w9_row (c : Dev nD) : W9 m ρ c (Proc.devRef .tc main_v1) = rowsE m c :=
  (W9_of_ne m ρ c main_v1 (by decide)).trans (w8_row m ρ c)
theorem w9_col (c : Dev nD) : W9 m ρ c (Proc.devRef .tc main_v3) = colsE m c :=
  (W9_of_ne m ρ c main_v3 (by decide)).trans (w8_col m ρ c)
theorem w9_norm (c : Dev nD) : W9 m ρ c (Proc.devRef .tc main_v11) = normE m c :=
  ((W9_arr m ρ c 1).trans (((dat5 (V8 m ρ) c).arrAt_in 1 rfl _).trans (A_eq5 (V8 m ρ) c 1))).trans (w8_norm m ρ c)

theorem w10_agg (c : Dev nD) : W10 m ρ c (Proc.devRef .tc main_v48) = aggOf (rowsE m c) (colsE m c) (scaleG (normE m c) (feat2 m c)) := by
  have e : W10 m ρ c (Proc.devRef .tc main_v48)
      = aggOf (W9 m ρ c (Proc.devRef .tc main_v1)) (W9 m ρ c (Proc.devRef .tc main_v3)) (W9 m ρ c (Proc.devRef .tc main_v38)) := by
    show StableHlo.after hostOps6 (W9 m ρ c) (Proc.devRef .tc main_v48) = _
    after_results
    rfl
  rw [e, w9_row m ρ c, w9_col m ρ c, w9_xs m ρ c]
theorem w10_xs (c : Dev nD) : W10 m ρ c (Proc.devRef .tc main_v38) = scaleG (normE m c) (feat2 m c) := by
  have e : W10 m ρ c (Proc.devRef .tc main_v38) = W9 m ρ c (Proc.devRef .tc main_v38) := by
    show StableHlo.after hostOps6 (W9 m ρ c) (Proc.devRef .tc main_v38) = _
    after_results
  rw [e, w9_xs m ρ c]
theorem w10_norm (c : Dev nD) : W10 m ρ c (Proc.devRef .tc main_v11) = normE m c := by
  have e : W10 m ρ c (Proc.devRef .tc main_v11) = W9 m ρ c (Proc.devRef .tc main_v11) := by
    show StableHlo.after hostOps6 (W9 m ρ c) (Proc.devRef .tc main_v11) = _
    after_results
  rw [e, w9_norm m ρ c]

/-- The result buffer at the last boundary: three layers over `x · W + b`. -/
theorem w11_out (c : Dev nD) : W11 m ρ c (Proc.devRef .tc main_v49) = feat3 m c :=
  (W11_arr m ρ c 3).trans ((final6 (V10 m ρ) c).trans (by
    show combineG (W10 m ρ c (Proc.devRef .tc main_v48)) (W10 m ρ c (Proc.devRef .tc main_v38)) (W10 m ρ c (Proc.devRef .tc main_v11)) = _
    rw [w10_agg m ρ c, w10_xs m ρ c, w10_norm m ρ c]
    rfl))

end Cert.KernelIdeal.Hand

end
-- ==== Proof.RefBridge.lean ====
/-
  The reference program's result, read stage by stage, is three layers `layerG` over `x · W + b`.

  Its row and column index vectors are `rowOf e` and `colOf e`, its normalising column is `normOfRow (rowOf e)`, and each of its
  three repetitions of "scale the rows, gather along the edges, scatter-add into zeros, add the scaled array, scale the rows"
  is one `layerG` of the array before it: the same operations applied to the same operands, in the same order.
-/
import proofs.«152417_j22368189678004_1_alg».proof.Proof.Spec
import proofs.«152417_j22368189678004_1_alg».proof.Proof.Gen.ReferenceIdeal.Read

set_option maxRecDepth 16384

noncomputable section

namespace Cert.KernelIdeal.Hand

open Idealize.ShloMosaic Cert.KernelIdeal Cert.KernelIdeal.Gen
open Cert.ReferenceIdeal.Read

variable {F : FTy → Type} [FloatOps F]

variable (x : (⟨S50000x128, .f32⟩ : BufTy).Contents (Elt F)) (e : (⟨S2x800000, .i32⟩ : BufTy).Contents (Elt F))
  (w : (⟨S128x64, .f32⟩ : BufTy).Contents (Elt F)) (b : (⟨S64, .f32⟩ : BufTy).Contents (Elt F))

/-- The reference's row indices are the edge list's first row. -/
theorem ref_row : val_main_v1 (F := F) e = rowOf e := by
  unfold val_main_v1 val_main_v0 rowOf; rfl

/-- The reference's column indices are the edge list's second row. -/
theorem ref_col : val_main_v3 (F := F) e = colOf e := by
  unfold val_main_v3 val_main_v2 colOf; rfl

/-- The reference's normalising column is `rsqrt (1 + deg)` of the row indices. -/
theorem ref_norm : val_main_v11 (F := F) e = normOfRow (rowOf e) := by
  unfold val_main_v11 val_main_v10 val_main_v9 val_main_v8 val_main_cst_1 val_main_v7 val_main_v6 val_main_v5 val_main_cst_0
    val_main_v4 val_main_cst normOfRow
  rw [ref_row]; rfl

/-- The reference's first repetition is one layer over `x · W + b`. -/
theorem ref_layer1 : val_main_v30 (F := F) x e w b
    = layerG (val_main_v11 (F := F) e) (val_main_v1 (F := F) e) (val_main_v3 (F := F) e) (val_main_v15 (F := F) x w b) := by
  unfold val_main_v30 val_main_v29 val_main_v28 val_main_v27 val_main_v26 val_main_v25 val_main_cst_3 val_main_v24 val_main_v23
    val_main_v22 val_main_v21 val_main_v20 val_main_c_2 val_main_v19 val_main_v18 val_main_c val_main_v17 val_main_v16
    layerG combineG aggOf scaleG
  rfl

/-- The second repetition is one layer over the first's result. -/
theorem ref_layer2 : val_main_v45 (F := F) x e w b
    = layerG (val_main_v11 (F := F) e) (val_main_v1 (F := F) e) (val_main_v3 (F := F) e) (val_main_v30 (F := F) x e w b) := by
  unfold val_main_v45 val_main_v44 val_main_v43 val_main_v42 val_main_v41 val_main_v40 val_main_cst_6 val_main_v39 val_main_v38
    val_main_v37 val_main_v36 val_main_v35 val_main_c_5 val_main_v34 val_main_v33 val_main_c_4 val_main_v32 val_main_v31
    layerG combineG aggOf scaleG
  rfl

/-- The third repetition is one layer over the second's result. -/
theorem ref_layer3 : val_main_v60 (F := F) x e w b
    = layerG (val_main_v11 (F := F) e) (val_main_v1 (F := F) e) (val_main_v3 (F := F) e) (val_main_v45 (F := F) x e w b) := by
  unfold val_main_v60 val_main_v59 val_main_v58 val_main_v57 val_main_v56 val_main_v55 val_main_cst_9 val_main_v54 val_main_v53
    val_main_v52 val_main_v51 val_main_v50 val_main_c_8 val_main_v49 val_main_v48 val_main_c_7 val_main_v47 val_main_v46
    layerG combineG aggOf scaleG
  rfl

/-- The reference's result: three layers, with the edge list's two rows and its normalising column, over `x · W + b`. -/
theorem ref_net : val_main_v60 (F := F) x e w b
    = layerG (normOfRow (rowOf e)) (rowOf e) (colOf e)
        (layerG (normOfRow (rowOf e)) (rowOf e) (colOf e)
          (layerG (normOfRow (rowOf e)) (rowOf e) (colOf e) (val_main_v15 (F := F) x w b))) := by
  rw [ref_layer3, ref_layer2, ref_layer1, ref_norm, ref_row, ref_col]

end Cert.KernelIdeal.Hand

end
-- ==== Proof.lean ====
/-
  A graph-convolution network's forward pass, as Pallas kernels among host gathers and scatters, against its jnp reference.

  Both programs compute, from features `x : f32[50000, 128]`, an edge list `e : i32[2, 800000]`, weights `W : f32[128, 64]` and a
  bias `b : f32[64]`: the column `n = rsqrt (1 + deg)`, where `deg` counts each node's occurrences in the edge list's first row;
  the embedding `h₀ = x · W + b`; and three times `h ↦ n · (A (n · h) + n · h)`, where `A` sums, over every edge, the row at the
  edge's second endpoint into the row at its first. The kernel program computes the embedding and the two row scalings of each
  layer in seven kernel regions over ten row blocks of 5000, and the edge sums on the host between them, with the very
  operations of the reference. On the extended reals the embedding kernel's bf16 matrix product into a zero accumulator is the
  reference's sum over the 128 shared coordinates (the casts are the identity), and the row kernels' broadcasts of a column
  block are the reference's broadcast of the column; so the result buffers agree entry by entry, with no algebra beyond that
  reading: no finiteness of the inputs is used.

  The three frames: the kernel programs' are the several-region frame certificates; the reference's is its run with the result
  dropped. The idealization rewrote no operation, so there is nothing to preserve.
-/
import proofs.«152417_j22368189678004_1_alg».proof.Defs
import proofs.«152417_j22368189678004_1_alg».proof.Proof.Gen.Kernel
import proofs.«152417_j22368189678004_1_alg».proof.Proof.KernelFrameP
import proofs.«152417_j22368189678004_1_alg».proof.Proof.Gen.KernelIdeal
import proofs.«152417_j22368189678004_1_alg».proof.Proof.KernelIdealFrameP
import proofs.«152417_j22368189678004_1_alg».proof.Proof.KRun
import proofs.«152417_j22368189678004_1_alg».proof.Proof.Chain
import proofs.«152417_j22368189678004_1_alg».proof.Proof.RefBridge
import proofs.«152417_j22368189678004_1_alg».proof.Proof.Gen.ReferenceIdeal
import proofs.«152417_j22368189678004_1_alg».proof.Proof.Gen.ReferenceIdeal.Run
import proofs.«152417_j22368189678004_1_alg».proof.Proof.Gen.ReferenceIdeal.Read
import proofs.«152417_j22368189678004_1_alg».proof.Proof.Gen.Pre_finite_inputs
import Idealize.ShloMosaic.Adequacy
import Idealize.ShloMosaic.Init

noncomputable section

namespace Cert.Proof

open Idealize.ShloMosaic Idealize.SL.Sem

/-- The word-level kernel program runs, and its arguments end as launched. -/
theorem frame_k : Cert.frame_Kernel := fun m ρ _ => Cert.Kernel.GenP.frame m ρ

/-- The idealized kernel program runs, and its arguments end as launched. -/
theorem frame_ki : Cert.frame_KernelIdeal := fun m ρ _ => Cert.KernelIdeal.GenP.frame m ρ

/-- The idealized reference runs, and its arguments end as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with three layers over `x · W + b` in their result buffers: the kernel program's
    result read off its run boundary by boundary, the reference's read stage by stage, of arguments that agree. -/
theorem algebraic : Cert.algebraic_KernelIdeal_ReferenceIdeal := by
  intro m ρ m' ρ' _ hagree
  refine ⟨fun c => Cert.KernelIdeal.Hand.feat3 m c, ?_, ?_⟩
  · exact (θ_run Cert.KernelIdeal.defs _ _).mono
      (fun _ h c => ⟨(h c).1.trans (Cert.KernelIdeal.Hand.w11_out m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v60_eq, (hagree c).1, (hagree c).2.1, (hagree c).2.2.1, (hagree c).2.2.2]
    exact Cert.KernelIdeal.Hand.ref_net _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
